-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S32x64 : Shape := ⟨2, ![32, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part1 {F : FTy → Type} [FloatOps F] (main_arg1 : IVec S2x3200000 32) (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 4294867296#32
  let main_v24 : IVec S2x3200000 32 := broadcastInDim S2x3200000 ![] bcast_S_S2x3200000 main_c_8
  let main_v25 : IVec S2x3200000 1 := cmpi .sge main_arg1 main_v24
  let main_c_9 : IVec S_ 32 := constantI S_ 32 100000#32
  let main_v26 : IVec S2x3200000 32 := broadcastInDim S2x3200000 ![] bcast_S_S2x3200000 main_c_9
  let main_v27 : IVec S2x3200000 1 := cmpi .slt main_arg1 main_v26
  let main_v28 : IVec S2x3200000 1 := andi main_v25 main_v27
  let main_c_10 : IVec S_ 1 := constantI S_ 1 1#1
  let main_v29 : IVec S_ 1 := (fun x v => Host.reduce IntOp.andi x v reducesTo_S2x3200000_S_d0_1 h_S_) main_v28 main_c_10
  let main_v30 : IVec S_ 1 := andi main_v23 main_v29
  main_v30

def fn {F : FTy → Type} [FloatOps F] (main_arg0 : FVec F S100000x16 .f32) (main_arg1 : IVec S2x3200000 32) (main_arg2 : FVec F S32x64 .f32) (main_arg3 : FVec F S64 .f32) (main_arg4 : FVec F S64x1 .f32) (main_arg5 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg1 main_arg5 main_v13 main_v16
-- ==== Kernel.lean ====
abbrev S100000x16 : Shape := ⟨2, ![100000, 16]⟩
abbrev S2x3200000 : Shape := ⟨2, ![2, 3200000]⟩
abbrev S32x64 : Shape := ⟨2, ![32, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S16x100000 : Shape := ⟨2, ![16, 100000]⟩
abbrev S_ : Shape := ⟨0, ![]⟩
abbrev S3200000x1 : Shape := ⟨2, ![3200000, 1]⟩
abbrev S1x1 : Shape := ⟨2, ![1, 1]⟩
abbrev S16x3200000 : Shape := ⟨2, ![16, 3200000]⟩
abbrev S16x64 : Shape := ⟨2, ![16, 64]⟩
abbrev S64x16 : Shape := ⟨2, ![64, 16]⟩
abbrev S1x64 : Shape := ⟨2, ![1, 64]⟩
abbrev S16x25600 : Shape := ⟨2, ![16, 25600]⟩
abbrev S1x25600 : Shape := ⟨2, ![1, 25600]⟩
abbrev S64x25600 : Shape := ⟨2, ![64, 25600]⟩

abbrev nBuf : Space → Nat
  | .hbm => 66
  | .vmem => 11
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S32x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S16x100000, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S1, .i32⟩
  | .hbm, ⟨20, _⟩ => ⟨S_, .i32⟩
  | .hbm, ⟨21, _⟩ => ⟨S3200000x1, .i32⟩
  | .hbm, ⟨22, _⟩ => ⟨S3200000x1, .i1⟩
  | .hbm, ⟨23, _⟩ => ⟨S1x1, .i32⟩
  | .hbm, ⟨24, _⟩ => ⟨S3200000x1, .i32⟩
  | .hbm, ⟨25, _⟩ => ⟨S3200000x1, .i1⟩
  | .hbm, ⟨26, _⟩ => ⟨S3200000x1, .i1⟩
  | .hbm, ⟨27, _⟩ => ⟨S_, .i1⟩
  | .hbm, ⟨28, _⟩ => ⟨S3200000, .i1⟩
  | .hbm, ⟨29, _⟩ => ⟨S16x3200000, .f32⟩
  | .hbm, ⟨30, _⟩ => ⟨S16x3200000, .i1⟩
  | .hbm, ⟨31, _⟩ => ⟨S_, .f32⟩
  | .hbm, ⟨32, _⟩ => ⟨S16x3200000, .f32⟩
  | .hbm, ⟨33, _⟩ => ⟨S16x3200000, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S1, .i32⟩
  | .hbm, ⟨43, _⟩ => ⟨S_, .i32⟩
  | .hbm, ⟨44, _⟩ => ⟨S3200000x1, .i32⟩
  | .hbm, ⟨45, _⟩ => ⟨S3200000x1, .i1⟩
  | .hbm, ⟨46, _⟩ => ⟨S1x1, .i32⟩
  | .hbm, ⟨47, _⟩ => ⟨S3200000x1, .i32⟩
  | .hbm, ⟨48, _⟩ => ⟨S3200000x1, .i1⟩
  | .hbm, ⟨49, _⟩ => ⟨S3200000x1, .i1⟩
  | .hbm, ⟨50, _⟩ => ⟨S_, .i1⟩
  | .hbm, ⟨51, _⟩ => ⟨S3200000, .i1⟩
  | .hbm, ⟨52, _⟩ => ⟨S16x3200000, .f32⟩
  | .hbm, ⟨53, _⟩ => ⟨S16x3200000, .i1⟩
  | .hbm, ⟨54, _⟩ => ⟨S_, .f32⟩
  | .hbm, ⟨55, _⟩ => ⟨S16x3200000, .f32⟩
  | .hbm, ⟨56, _⟩ => ⟨S16x3200000, .f32⟩
  | .hbm, ⟨57, _⟩ => ⟨S16x64, .f32⟩
  | .hbm, ⟨58, _⟩ => ⟨S16x64, .f32⟩
  | .hbm, ⟨59, _⟩ => ⟨S64x16, .f32⟩
  | .hbm, ⟨60, _⟩ => ⟨S64x16, .f32⟩
  | .hbm, ⟨61, _⟩ => ⟨S1x64, .f32⟩
  | .hbm, ⟨62, _⟩ => ⟨S64x1, .f32⟩
  | .hbm, ⟨63, _⟩ => ⟨S1x1, .f32⟩
  | .hbm, ⟨64, _⟩ => ⟨S1x3200000, .f32⟩
  | .hbm, ⟨65, _⟩ => ⟨S3200000x1, .f32⟩
  | .local _ .vmem, ⟨0, _⟩ => ⟨S16x25600, .f32⟩
  | .local _ .vmem, ⟨1, _⟩ => ⟨S16x25600, .f32⟩
  | .local _ .vmem, ⟨2, _⟩ => ⟨S16x25600, .f32⟩
  | .local _ .vmem, ⟨3, _⟩ => ⟨S16x25600, .f32⟩
  | .local _ .vmem, ⟨4, _⟩ => ⟨S64x16, .f32⟩
  | .local _ .vmem, ⟨5, _⟩ => ⟨S64x16, .f32⟩
  | .local _ .vmem, ⟨6, _⟩ => ⟨S1x64, .f32⟩
  | .local _ .vmem, ⟨7, _⟩ => ⟨S64x1, .f32⟩
  | .local _ .vmem, ⟨8, _⟩ => ⟨S1x1, .f32⟩
  | .local _ .vmem, ⟨9, _⟩ => ⟨S1x25600, .f32⟩
  | .local _ .vmem, ⟨10, _⟩ => ⟨S1x25600, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v5 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x25600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x25600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x25600 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  transposes_S100000x16_S16x100000_1_0 : S100000x16.Transposes [1, 0] S16x100000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S16x3200000_1 : S3200000.BroadcastsInDim S16x3200000 (![1] : Fin 1 → Fin S16x3200000.rank)
  bcast_S_S16x3200000 : S_.BroadcastsInDim S16x3200000 (![] : Fin 0 → Fin S16x3200000.rank)
  slices_S32x64_S16x64_0_0 : S32x64.Slices ![0, 0] S16x64
  slices_S32x64_S16x64_16_0 : S32x64.Slices ![16, 0] S16x64
  transposes_S16x64_S64x16_1_0 : S16x64.Transposes [1, 0] S64x16
  transposes_S64x1_S1x64_1_0 : S64x1.Transposes [1, 0] S1x64
  shapeCasts_S64_S64x1 : S64.ShapeCasts S64x1
  shapeCasts_S1_S1x1 : S1.ShapeCasts S1x1
  inb_S16x25600_S16x25600_0_0 : ∀ a, (![0, 0] : Fin 2 → Nat) a + S16x25600.size a ≤ S16x25600.size a
  h_S16x25600 : 0 < S16x25600.numel
  shapeCasts_S16x25600_S16x25600 : S16x25600.ShapeCasts S16x25600
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x25600 : S64x1.Broadcasts S64x25600
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x25600 : S1x1.Broadcasts S1x25600
  inb_S1x25600_S1x25600_0_0 : ∀ a, (![0, 0] : Fin 2 → Nat) a + S1x25600.size a ≤ S1x25600.size a
  h_S1x25600 : 0 < S1x25600.numel
  shapeCasts_S1x3200000_S3200000x1 : S1x3200000.ShapeCasts S3200000x1
  gather_S16x100000_S3200000x1_S16x3200000_0_1_n_n_1_1_161_wf : GatherDims.WF S16x100000 S3200000x1 S16x3200000 [0] [1] [] [1] [] 1 ![16, 1]
  dot_S64x16_S16x25600_S64x25600_1_0_0_1_n_n_wf : DotDims.WF S64x16 S16x25600 S64x25600 [1] [0] [0] [1] [] []
  dot_S1x64_S64x25600_S1x25600_1_0_0_1_n_n_wf : DotDims.WF S1x64 S64x25600 S1x25600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x25600.size a ≤ S16x3200000.size a
  hwx0_0 : ∀ i : grid0.Coords, EltTy.bits .f32 = 32 ∨ (Rect.block (s := S16x3200000) S16x25600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x25600.size a ≤ S16x3200000.size a
  hwx0_1 : ∀ i : grid0.Coords, EltTy.bits .f32 = 32 ∨ (Rect.block (s := S16x3200000) S16x25600.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x25600.size a ≤ S1x3200000.size a
  hwx0_7 : ∀ i : grid0.Coords, EltTy.bits .f32 = 32 ∨ (Rect.block (s := S1x3200000) S1x25600.size (cc0_transform_7 i) (hinb0_7 i)).WholeWords (EltTy.packing .f32)

variable [Facts₀]

def gather_S16x100000_S3200000x1_S16x3200000_0_1_n_n_1_1_161 : GatherDims S16x100000 S3200000x1 S16x3200000 where
  offsetDims := [0]
  collapsedSliceDims := [1]
  operandBatchingDims := []
  startIndicesBatchingDims := []
  startIndexMap := [1]
  indexVectorDim := 1
  sliceSizes := ![16, 1]
  wf := gather_S16x100000_S3200000x1_S16x3200000_0_1_n_n_1_1_161_wf
def dot_S64x16_S16x25600_S64x25600_1_0_0_1_n_n : DotDims S64x16 S16x25600 S64x25600 where
  lhsContracting := [1]
  rhsContracting := [0]
  lhsNonContracting := [0]
  rhsNonContracting := [1]
  lhsBatch := []
  rhsBatch := []
  wf := dot_S64x16_S16x25600_S64x25600_1_0_0_1_n_n_wf
def dot_S1x64_S64x25600_S1x25600_1_0_0_1_n_n : DotDims S1x64 S64x25600 S1x25600 where
  lhsContracting := [1]
  rhsContracting := [0]
  lhsNonContracting := [0]
  rhsNonContracting := [1]
  lhsBatch := []
  rhsBatch := []
  wf := dot_S1x64_S64x25600_S1x25600_1_0_0_1_n_n_wf

abbrev win0_0 : Pipeline.Window sig grid0 :=
  Pipeline.Window.ofSpec (Memref.whole main_v5) S16x25600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S16x25600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x25600.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S32x64 : Shape := ⟨2, ![32, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S3200000x32 : Shape := ⟨2, ![3200000, 32]⟩
abbrev S3200000x64 : Shape := ⟨2, ![3200000, 64]⟩
abbrev S1x64 : Shape := ⟨2, ![1, 64]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S32x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x16, .f32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000x16, .f32⟩
  | .hbm, ⟨28, _⟩ => ⟨S3200000x32, .f32⟩
  | .hbm, ⟨29, _⟩ => ⟨S3200000x64, .f32⟩
  | .hbm, ⟨30, _⟩ => ⟨S1x64, .f32⟩
  | .hbm, ⟨31, _⟩ => ⟨S3200000x64, .f32⟩
  | .hbm, ⟨32, _⟩ => ⟨S3200000x64, .f32⟩
  | .hbm, ⟨33, _⟩ => ⟨S3200000x64, .f32⟩
  | .hbm, ⟨34, _⟩ => ⟨S3200000x1, .f32⟩
  | .hbm, ⟨35, _⟩ => ⟨S1x1, .f32⟩
  | .hbm, ⟨36, _⟩ => ⟨S3200000x1, .f32⟩
  | .hbm, ⟨37, _⟩ => ⟨S3200000x1, .f32⟩
  | .hbm, ⟨38, _⟩ => ⟨S3200000x1, .f32⟩
  | .hbm, ⟨39, _⟩ => ⟨S3200000x1, .f32⟩
  | .hbm, ⟨40, _⟩ => ⟨S_, .f32⟩
  | .hbm, ⟨41, _⟩ => ⟨S3200000x1, .f32⟩
  | .hbm, ⟨42, _⟩ => ⟨S3200000x1, .f32⟩
  | .hbm, ⟨43, _⟩ => ⟨S_, .f32⟩
  | .hbm, ⟨44, _⟩ => ⟨S3200000x1, .f32⟩
  | .hbm, ⟨45, _⟩ => ⟨S3200000x1, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x16_S3200000x16_S3200000x32_d1 : Shape.Concatenates [S3200000x16, S3200000x16] S3200000x32 1
  bcast_S64_S1x64_1 : S64.BroadcastsInDim S1x64 (![1] : Fin 1 → Fin S1x64.rank)
  bcast_S1x64_S3200000x64_0_1 : S1x64.BroadcastsInDim S3200000x64 (![0, 1] : Fin 2 → Fin S3200000x64.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  bcast_S_S3200000x1 : S_.BroadcastsInDim S3200000x1 (![] : Fin 0 → Fin S3200000x1.rank)
  gather_S100000x16_S3200000x1_S3200000x16_1_0_n_n_0_1_116_wf : GatherDims.WF S100000x16 S3200000x1 S3200000x16 [1] [0] [] [0] [] 1 ![1, 16]
  dot_S3200000x32_S32x64_S3200000x64_1_0_0_1_n_n_wf : DotDims.WF S3200000x32 S32x64 S3200000x64 [1] [0] [0] [1] [] []
  dot_S3200000x64_S64x1_S3200000x1_1_0_0_1_n_n_wf : DotDims.WF S3200000x64 S64x1 S3200000x1 [1] [0] [0] [1] [] []

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S3200000x32_S32x64_S3200000x64_1_0_0_1_n_n : DotDims S3200000x32 S32x64 S3200000x64 where
  lhsContracting := [1]
  rhsContracting := [0]
  lhsNonContracting := [0]
  rhsNonContracting := [1]
  lhsBatch := []
  rhsBatch := []
  wf := dot_S3200000x32_S32x64_S3200000x64_1_0_0_1_n_n_wf
def dot_S3200000x64_S64x1_S3200000x1_1_0_0_1_n_n : DotDims S3200000x64 S64x1 S3200000x1 where
  lhsContracting := [1]
  rhsContracting := [0]
  lhsNonContracting := [0]
  rhsNonContracting := [1]
  lhsBatch := []
  rhsBatch := []
  wf := dot_S3200000x64_S64x1_S3200000x1_1_0_0_1_n_n_wf

class Facts : Prop extends Facts₀ where

variable [Facts]
-- ==== Proof.Spec.lean ====
/-
  The edge network as one function of the argument arrays, over the extended reals.

  For edge `e` with end points `r = row e` and `c = col e` (each an index into the node table, a negative one
  counted from the end, the result clamped into the table as a gather clamps it), the score is
      σ( ∑ⱼ tanh( ∑ₖ x[c, k] · W₁[k, j] + ∑ₖ x[r, k] · W₁[16 + k, j] + b₁[j] ) · W₂[j, 0] + b₂[0] ),
  σ the logistic function. The product of the concatenated features `[x[c, ·], x[r, ·]]` with `W₁` is the sum of
  the two half products: a sum over thirty-two terms split at sixteen, which holds on the extended reals without any
  finiteness (addition there is commutative and associative).
-/
import Idealize.ShloMosaic.PureOps.Ideal.Laws
import Idealize.ShloMosaic.Lib.ValueIdx

noncomputable section

open scoped BigOperators

namespace Cert.EdgeNet

open Idealize.ShloMosaic Idealize.ShloMosaic.ValueIdx

/-- jnp's rule for a negative index into an axis of 100000 entries: count from the end. -/
def wrap (v : BitVec 32) : BitVec 32 := Scalar.select (IntOp.cmpi .slt v 0#32) (IntOp.addi v 100000#32) v

/-- The table row a start index reads: wrapped, read signed, clamped into the table. -/
def rowOf (v : BitVec 32) : Fin 100000 := ⟨min (wrap v).toInt.toNat (100000 - 1), by omega⟩

/-- An index is one NumPy accepts for an axis of 100000 entries. -/
def InRange (v : BitVec 32) : Prop := -100000 ≤ v.toInt ∧ v.toInt < 100000

/-- Feature `k` of end point `a` (0: the row index, 1: the column index) of edge `e`. -/
def feat (x : FVec Ideal (⟨2, ![100000, 16]⟩ : Shape) .f32) (ei : IVec (⟨2, ![2, 3200000]⟩ : Shape) 32)
    (a : Fin 2) (e : Fin 3200000) (k : Fin 16) : EReal :=
  x (ix2 (rowOf (ei (ix2 a e))) k)

/-- Hidden unit `j` of edge `e`. -/
def hidden (x : FVec Ideal (⟨2, ![100000, 16]⟩ : Shape) .f32) (ei : IVec (⟨2, ![2, 3200000]⟩ : Shape) 32)
    (W1 : FVec Ideal (⟨2, ![32, 64]⟩ : Shape) .f32) (b1 : FVec Ideal (⟨1, ![64]⟩ : Shape) .f32)
    (e : Fin 3200000) (j : Fin 64) : EReal :=
  Ideal.tanh ((∑ k : Fin 16, feat x ei 1 e k * W1 (ix2 (Fin.castAdd 16 k) j)
      + ∑ k : Fin 16, feat x ei 0 e k * W1 (ix2 (Fin.natAdd 16 k) j)) + b1 (ix1 j))

/-- The score of edge `e`. -/
def score (x : FVec Ideal (⟨2, ![100000, 16]⟩ : Shape) .f32) (ei : IVec (⟨2, ![2, 3200000]⟩ : Shape) 32)
    (W1 : FVec Ideal (⟨2, ![32, 64]⟩ : Shape) .f32) (b1 : FVec Ideal (⟨1, ![64]⟩ : Shape) .f32)
    (W2 : FVec Ideal (⟨2, ![64, 1]⟩ : Shape) .f32) (b2 : FVec Ideal (⟨1, ![1]⟩ : Shape) .f32)
    (e : Fin 3200000) : EReal :=
  Ideal.logistic ((∑ j : Fin 64, hidden x ei W1 b1 e j * W2 (ix2 j (0 : Fin 1))) + b2 (ix1 (0 : Fin 1)))

/-- The result array: one score per edge, as a column. -/
def scores (x : FVec Ideal (⟨2, ![100000, 16]⟩ : Shape) .f32) (ei : IVec (⟨2, ![2, 3200000]⟩ : Shape) 32)
    (W1 : FVec Ideal (⟨2, ![32, 64]⟩ : Shape) .f32) (b1 : FVec Ideal (⟨1, ![64]⟩ : Shape) .f32)
    (W2 : FVec Ideal (⟨2, ![64, 1]⟩ : Shape) .f32) (b2 : FVec Ideal (⟨1, ![1]⟩ : Shape) .f32) :
    FVec Ideal (⟨2, ![3200000, 1]⟩ : Shape) .f32 :=
  fun i => score x ei W1 b1 W2 b2 ⟨(i 0).val, idx2_lt0 i⟩

/-- A sum over thirty-two terms is the sum of its first sixteen and its last sixteen. -/
theorem sum_split (f : Fin 32 → EReal) :
    ∑ k : Fin 32, f k = ∑ k : Fin 16, f (Fin.castAdd 16 k) + ∑ k : Fin 16, f (Fin.natAdd 16 k) :=
  Fin.sum_univ_add (a := 16) (b := 16) f

/-- The pattern of `1.0` denotes one. -/
theorem ofBits_one : Ideal.ofBits .f32 0x3F800000#32 = 1 := by
  simp [Ideal.ofBits, Ideal.ieee, -EReal.coe_mul]; norm_num

/-- An index NumPy accepts wraps into the table: the wrapped word, read signed, lies in `[0, 99999]`. -/
theorem wrap_toInt_of_inRange {v : BitVec 32} (h : InRange v) : 0 ≤ (wrap v).toInt ∧ (wrap v).toInt ≤ 99999 := by
  obtain ⟨h0, h1⟩ := h
  unfold wrap
  by_cases hn : v.toInt < 0
  · have hc : IntOp.cmpi .slt v 0#32 = 1#1 := by
      simp only [IntOp.cmpi, BitVec.slt, BitVec.toInt_zero]
      simp [hn]
    rw [hc, select_one]
    have ha : (IntOp.addi v 100000#32).toInt = v.toInt + 100000 := by
      show (v + 100000#32).toInt = _
      rw [BitVec.toInt_add]
      have : (100000#32 : BitVec 32).toInt = 100000 := by decide
      rw [this]
      have hb := BitVec.toInt_lt (x := v)
      have hb' := BitVec.le_toInt (x := v)
      exact Int.bmod_eq_of_le (by norm_num at hb' ⊢; omega) (by norm_num at hb ⊢; omega)
    rw [ha]; omega
  · have hc : IntOp.cmpi .slt v 0#32 = 0#1 := by
      simp only [IntOp.cmpi, BitVec.slt, BitVec.toInt_zero]
      simp [hn]
    rw [hc, select_zero]
    omega

end Cert.EdgeNet

end
-- ==== Proof.PreDecode.lean ====
/-
  From the stated precondition to the one fact the value proof uses: every entry of the edge list is an index NumPy
  accepts for an axis of 100000 entries, `-100000 ≤ v < 100000`.
-/
import proofs.«425720_j67937792688142_1_alg».proof.Proof.Gen.Pre_finite_inputs
import proofs.«425720_j67937792688142_1_alg».proof.Proof.Spec
import Idealize.ShloMosaic.Lib.ReduceAll
import Idealize.ShloMosaic.Lib.StableHlo.Predicate

noncomputable section

namespace Cert.EdgeNet

open Idealize.ShloMosaic Idealize.ShloMosaic.ValueIdx

/-- Where the precondition evaluates to true, every edge end point lies in `[-100000, 100000)`. -/
theorem inRange_of_pre [Cert.Pre_finite_inputs.Facts]
    (x : FVec Ideal Cert.Pre_finite_inputs.S100000x16 .f32) (ei : IVec Cert.Pre_finite_inputs.S2x3200000 32)
    (W1 : FVec Ideal Cert.Pre_finite_inputs.S32x64 .f32) (b1 : FVec Ideal Cert.Pre_finite_inputs.S64 .f32)
    (W2 : FVec Ideal Cert.Pre_finite_inputs.S64x1 .f32) (b2 : FVec Ideal Cert.Pre_finite_inputs.S1 .f32)
    (h : Cert.Pre_finite_inputs.fn (F := Ideal) x ei W1 b1 W2 b2 = fun _ => 1#1) (a : Fin 2) (e : Fin 3200000) :
    InRange (ei (ix2 a e)) := by
  -- The precondition is a word of one bit at the only index of the rank-0 result: a conjunction of six all-reductions.
  have h0 := congrFun h ValueIdx.ix0
  dsimp only [Cert.Pre_finite_inputs.fn, Cert.Pre_finite_inputs.fn_part1] at h0
  -- A conjunction that is 1 has both conjuncts 1: keep the last, the all-reduction over the edge list.
  have h1 := (IntOp.andi_eq_one.1 h0).2
  -- The rank-0 result has one index, so the reduction by `and` being 1 there says every element is 1.
  haveI : Subsingleton Cert.Pre_finite_inputs.S_.Idx := ⟨fun p q => funext fun d => d.elim0⟩
  have h2 := Host.reduce_andi_all _ _ _ _ _ h1 (ix2 a e)
  -- At entry (a, e) the element is the conjunction of the two signed comparisons with the broadcast bounds.
  obtain ⟨hge, hlt⟩ := IntOp.andi_eq_one.1 h2
  -- A broadcast scalar constant reads as the constant at every index; a signed comparison that is 1 is the order
  -- of the signed values.
  have hge' : (4294867296#32 : BitVec 32).toInt ≤ (ei (ix2 a e)).toInt := IntOp.cmpi_sge.1 hge
  have hlt' : (ei (ix2 a e)).toInt < (100000#32 : BitVec 32).toInt := IntOp.cmpi_slt.1 hlt
  -- The two bounds as signed values: 2³² − 100000 reads as −100000, and 100000 as itself.
  have hlo : (4294867296#32 : BitVec 32).toInt = -100000 := by decide
  have hhi : (100000#32 : BitVec 32).toInt = 100000 := by decide
  rw [hlo] at hge'
  rw [hhi] at hlt'
  exact ⟨hge', hlt'⟩

end Cert.EdgeNet

end
-- ==== Proof.RefRead.lean ====
import proofs.«425720_j67937792688142_1_alg».proof.Proof.Gen.ReferenceIdeal.Run
import proofs.«425720_j67937792688142_1_alg».proof.Proof.Gen.ReferenceIdeal.Read
-- ==== Proof.RefValue.lean ====
/-
  The reference program's result, read one operation at a time, is the edge network's score array.
-/
import proofs.«425720_j67937792688142_1_alg».proof.Proof.RefRead
import proofs.«425720_j67937792688142_1_alg».proof.Proof.Spec

noncomputable section

namespace Cert.ReferenceIdeal.RefValue

open Idealize.ShloMosaic Idealize.ShloMosaic.ValueIdx Cert.ReferenceIdeal Cert.ReferenceIdeal.Gen
open Cert.ReferenceIdeal.Read Cert.EdgeNet
open scoped BigOperators

/-- The row gather at `(e, k)`: the table at row "start index `idx[e, 0]`, read signed and clamped into
    `[0, 99999]`", column `k`. Axis 0 of the table is collapsed and indexed by the start index (slice size 1, so
    the clamp is to `100000 - 1`); axis 1 is the offset axis and carries the result's second coordinate. -/
theorem gather_at {α : Type} {w : Nat} (x : S100000x16.Idx → α) (idx : IVec S3200000x1 w) (e : Fin 3200000) (k : Fin 16) :
    Host.gather gather_S100000x16_S3200000x1_S3200000x16_1_0_n_n_0_1_116 x idx (ix2 e k)
      = x (ix2 ⟨min (idx (ix2 e (0 : Fin 1))).toInt.toNat (100000 - 1), by omega⟩ k) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x16_S3200000x1_S3200000x16_1_0_n_n_0_1_116.startIndexMap from
      List.mem_singleton.mpr rfl)]
    have hsi : gather_S100000x16_S3200000x1_S3200000x16_1_0_n_n_0_1_116.siIdx (ix2 e k)
        ⟨List.idxOf (0 : Fin 2) gather_S100000x16_S3200000x1_S3200000x16_1_0_n_n_0_1_116.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show ¬ (1 : Fin 2) ∈ gather_S100000x16_S3200000x1_S3200000x16_1_0_n_n_0_1_116.startIndexMap by decide)]
    unfold GatherDims.offCoord
    rw [dif_pos (show (1 : Fin 2) ∈ gather_S100000x16_S3200000x1_S3200000x16_1_0_n_n_0_1_116.sKept by decide)]
    simp only [Nat.zero_add]
    rfl

/-- The column start index of edge `e`: the wrapped entry `ei[1, e]`. -/
theorem col_at (ei : IVec S2x3200000 32) (e : Fin 3200000) :
    val_main_v9 (F := Ideal) ei (ix2 e (0 : Fin 1)) = wrap (ei (ix2 (1 : Fin 2) e)) := by
  rw [val_main_v9_apply, val_main_v8_apply, val_main_v5_apply, val_main_v7_apply, val_main_v3_apply, val_main_v2_apply,
    val_main_v4_apply, val_main_v6_apply, val_main_c_apply, val_main_c_0_apply]
  have hi : idx_main_v2 (idx_main_v3 (idx_main_v9 (ix2 e (0 : Fin 1)))) = ix2 (1 : Fin 2) e := by
    funext a; refine Fin.ext ?_
    match a with
    | ⟨0, _⟩ => rfl
    | ⟨1, _⟩ => exact Nat.mod_eq_of_lt e.isLt
  rw [hi]
  rfl

/-- The row start index of edge `e`: the wrapped entry `ei[0, e]`. -/
theorem row_at (ei : IVec S2x3200000 32) (e : Fin 3200000) :
    val_main_v16 (F := Ideal) ei (ix2 e (0 : Fin 1)) = wrap (ei (ix2 (0 : Fin 2) e)) := by
  rw [val_main_v16_apply, val_main_v15_apply, val_main_v12_apply, val_main_v14_apply, val_main_v1_apply, val_main_v0_apply,
    val_main_v11_apply, val_main_v13_apply, val_main_c_1_apply, val_main_c_2_apply]
  have hi : idx_main_v0 (idx_main_v1 (idx_main_v16 (ix2 e (0 : Fin 1)))) = ix2 (0 : Fin 2) e := by
    funext a; refine Fin.ext ?_
    match a with
    | ⟨0, _⟩ => rfl
    | ⟨1, _⟩ => exact Nat.mod_eq_of_lt e.isLt
  rw [hi]
  rfl

/-- The concatenated features at a column below sixteen: the column end point's feature. -/
theorem v18_left (x : FVec Ideal S100000x16 .f32) (ei : IVec S2x3200000 32) (e : Fin 3200000) (k : Fin 16) :
    val_main_v18 (F := Ideal) x ei (ix2 e (Fin.castAdd 16 k)) = feat x ei 1 e k := by
  unfold val_main_v18
  rw [concatenate_pair_apply_left (t := S3200000x32) (s₁ := S3200000x16) (s₂ := S3200000x16) (1 : Fin 2) _ _
    concatenates_S3200000x16_S3200000x16_S3200000x32_d1
    (ix2 e (Fin.castAdd 16 k)) rfl (ix2 e k : S3200000x16.Idx) (fun b => by
      match b with
      | ⟨0, _⟩ => rfl
      | ⟨1, _⟩ => rfl)]
  unfold val_main_v10
  rw [gather_at]
  simp only [col_at]
  rfl

/-- The concatenated features at a column from sixteen on: the row end point's feature, sixteen less. -/
theorem v18_right (x : FVec Ideal S100000x16 .f32) (ei : IVec S2x3200000 32) (e : Fin 3200000) (k : Fin 16) :
    val_main_v18 (F := Ideal) x ei (ix2 e (Fin.natAdd 16 k)) = feat x ei 0 e k := by
  unfold val_main_v18
  rw [concatenate_pair_apply_right (t := S3200000x32) (s₁ := S3200000x16) (s₂ := S3200000x16) (1 : Fin 2) _ _
    concatenates_S3200000x16_S3200000x16_S3200000x32_d1
    (ix2 e (Fin.natAdd 16 k)) rfl rfl (ix2 e k : S3200000x16.Idx) (fun b hb => by
      match b with
      | ⟨0, _⟩ => rfl
      | ⟨1, _⟩ => exact absurd rfl hb) (Nat.add_comm _ _)]
  unfold val_main_v17
  rw [gather_at]
  simp only [row_at]
  rfl

/-- The first layer before its activation, at `(e, j)`: the product with `W₁` over thirty-two columns split at
    sixteen into the column end point's and the row end point's halves, plus the bias. -/
theorem v22_at (x : FVec Ideal S100000x16 .f32) (ei : IVec S2x3200000 32) (W1 : FVec Ideal S32x64 .f32)
    (b1 : FVec Ideal S64 .f32) (e : Fin 3200000) (j : Fin 64) :
    val_main_v22 (F := Ideal) x ei W1 b1 (ix2 e j)
      = (∑ k : Fin 16, feat x ei 1 e k * W1 (ix2 (Fin.castAdd 16 k) j)
          + ∑ k : Fin 16, feat x ei 0 e k * W1 (ix2 (Fin.natAdd 16 k) j)) + b1 (ix1 j) := by
  rw [val_main_v22_apply, val_main_v19_apply, val_main_v21_apply, val_main_v20_apply, Ideal.addf_def, sum_split]
  have hb : idx_main_v20 (idx_main_v21 (ix2 e j)) = ix1 j := by
    funext a; match a with | ⟨0, _⟩ => rfl
  rw [hb]
  congr 1
  congr 1
  · refine Finset.sum_congr rfl fun k _ => ?_
    have hl : lidx_main_v19 (ix2 e j) (Fin.castAdd 16 k) = ix2 e (Fin.castAdd 16 k) := by
      funext a; match a with | ⟨0, _⟩ => rfl | ⟨1, _⟩ => rfl
    have hr : ridx_main_v19 (ix2 e j) (Fin.castAdd 16 k) = ix2 (Fin.castAdd 16 k) j := by
      funext a; match a with | ⟨0, _⟩ => rfl | ⟨1, _⟩ => rfl
    rw [hl, hr, v18_left]
  · refine Finset.sum_congr rfl fun k _ => ?_
    have hl : lidx_main_v19 (ix2 e j) (Fin.natAdd 16 k) = ix2 e (Fin.natAdd 16 k) := by
      funext a; match a with | ⟨0, _⟩ => rfl | ⟨1, _⟩ => rfl
    have hr : ridx_main_v19 (ix2 e j) (Fin.natAdd 16 k) = ix2 (Fin.natAdd 16 k) j := by
      funext a; match a with | ⟨0, _⟩ => rfl | ⟨1, _⟩ => rfl
    rw [hl, hr, v18_right]

/-- The first layer at `(e, j)` is hidden unit `j` of edge `e`. -/
theorem v23_at (x : FVec Ideal S100000x16 .f32) (ei : IVec S2x3200000 32) (W1 : FVec Ideal S32x64 .f32)
    (b1 : FVec Ideal S64 .f32) (e : Fin 3200000) (j : Fin 64) :
    val_main_v23 (F := Ideal) x ei W1 b1 (ix2 e j) = hidden x ei W1 b1 e j := by
  rw [val_main_v23_apply, Ideal.hostUnary_tanh_def, v22_at]
  rfl

/-- The reference's last stage is `scores` of the six arguments. -/
theorem ref_eq_scores (x : FVec Ideal S100000x16 .f32) (ei : IVec S2x3200000 32) (W1 : FVec Ideal S32x64 .f32)
    (b1 : FVec Ideal S64 .f32) (W2 : FVec Ideal S64x1 .f32) (b2 : FVec Ideal S1 .f32) :
    Cert.ReferenceIdeal.Read.val_main_v33 (F := Ideal) x ei W1 b1 W2 b2 = Cert.EdgeNet.scores x ei W1 b1 W2 b2 := by
  funext i
  obtain ⟨e, rfl⟩ : ∃ e : Fin 3200000, i = ix2 e (0 : Fin 1) := ⟨i 0, by
    funext a
    match a with
    | ⟨0, _⟩ => rfl
    | ⟨1, _⟩ => exact Fin.ext (by have := idx2_lt1 i; show (i 1).val = 0; omega)⟩
  rw [val_main_v33_apply, val_main_v32_apply, val_main_cst_3_apply, val_main_v31_apply, val_main_v30_apply,
    val_main_cst_apply, val_main_v29_apply, val_main_v28_apply, val_main_v27_apply, val_main_v24_apply,
    val_main_v26_apply, val_main_v25_apply]
  rw [Ideal.hostDivf_def, Ideal.ofBits_def, ofBits_one, Ideal.addf_def, Ideal.hostUnary_exp_def, Ideal.hostNegf_def,
    Ideal.negf_def, Ideal.addf_def]
  have hsum : (∑ k : Fin 64, val_main_v23 (F := Ideal) x ei W1 b1 (lidx_main_v24 (ix2 e (0 : Fin 1)) k)
        * W2 (ridx_main_v24 (ix2 e (0 : Fin 1)) k))
      = ∑ j : Fin 64, hidden x ei W1 b1 e j * W2 (ix2 j (0 : Fin 1)) := by
    refine Finset.sum_congr rfl fun k _ => ?_
    have hl : lidx_main_v24 (ix2 e (0 : Fin 1)) k = ix2 e k := by
      funext a; match a with | ⟨0, _⟩ => rfl | ⟨1, _⟩ => rfl
    have hr : ridx_main_v24 (ix2 e (0 : Fin 1)) k = ix2 k (0 : Fin 1) := by
      funext a; match a with | ⟨0, _⟩ => rfl | ⟨1, _⟩ => rfl
    rw [hl, hr, v23_at]
  have hb : idx_main_v25 (idx_main_v26 (ix2 e (0 : Fin 1))) = ix1 (0 : Fin 1) := by
    funext a; match a with | ⟨0, _⟩ => rfl
  rw [hsum, hb]
  rfl

end Cert.ReferenceIdeal.RefValue

end
-- ==== Proof.KernelArgs.lean ====
/-
  The six argument arrays of the idealized kernel program on one device, under the names the mathematics gives them:
  the node features `x`, the edge list `ei` (row 0: the row end points, row 1: the column end points), and the two
  layers' weights and biases.
-/
import proofs.«425720_j67937792688142_1_alg».proof.KernelIdeal
import Idealize.ShloMosaic.Lib.ValueIdx

noncomputable section

namespace Cert.KernelIdeal.Args

open Idealize.ShloMosaic Idealize.ShloMosaic.TcCoe Idealize.SL.Sem Cert.KernelIdeal

variable (m : (ℓ : Loc nD τ sig) → Buf (Elt Ideal) ℓ)

/-- The node features, one row of sixteen per node. -/
abbrev xA (c : Dev nD) : FVec Ideal S100000x16 .f32 := m ((c.tc : Thread nD τ).loc main_arg0)
/-- The edge list: entry (0, e) is edge e's row end point, entry (1, e) its column end point. -/
abbrev eiA (c : Dev nD) : IVec S2x3200000 32 := m ((c.tc : Thread nD τ).loc main_arg1)
/-- The first layer's weights. -/
abbrev W1A (c : Dev nD) : FVec Ideal S32x64 .f32 := m ((c.tc : Thread nD τ).loc main_arg2)
/-- The first layer's bias. -/
abbrev b1A (c : Dev nD) : FVec Ideal S64 .f32 := m ((c.tc : Thread nD τ).loc main_arg3)
/-- The second layer's weights. -/
abbrev W2A (c : Dev nD) : FVec Ideal S64x1 .f32 := m ((c.tc : Thread nD τ).loc main_arg4)
/-- The second layer's bias. -/
abbrev b2A (c : Dev nD) : FVec Ideal S1 .f32 := m ((c.tc : Thread nD τ).loc main_arg5)

end Cert.KernelIdeal.Args

end
-- ==== Proof.KernelTake.lean ====
/-
  The two gathered feature tables the kernel region is entered with, read at an entry: for an edge list whose entries
  are all valid indices, entry (k, e) of each is feature k of the corresponding end point of edge e.
-/
import proofs.«425720_j67937792688142_1_alg».proof.Proof.Gen.KernelIdeal.Frame
import proofs.«425720_j67937792688142_1_alg».proof.Proof.KernelArgs
import proofs.«425720_j67937792688142_1_alg».proof.Proof.Spec
import Idealize.ShloMosaic.Lib.StableHlo.Run
import Idealize.ShloMosaic.Lib.ValueLayout
import Idealize.ShloMosaic.PureOps.Reduce

noncomputable section

namespace Cert.KernelIdeal.HostValue

open Idealize.ShloMosaic Idealize.ShloMosaic.ValueIdx Idealize.ShloMosaic.TcCoe Idealize.SL.Sem
open Cert.KernelIdeal Cert.KernelIdeal.Gen Cert.KernelIdeal.Args Cert.EdgeNet

variable (m : (ℓ : Loc nD τ sig) → Buf (Elt Ideal) ℓ)

/-! ## Taking columns of a table by an index vector

For a table `t` of sixteen rows and 100000 columns and a vector `iv` of 3200000 indices, the array whose entry (k, e) is
`t` at (k, iv e): each index first counted from the end when negative, the entry replaced by a NaN when the resulting index
falls outside [0, 99999], the column read being that index clamped into the table. -/

/-- The indices counted from the end when negative, as a column. -/
def idxCol (iv : IVec S3200000 32) : IVec S3200000x1 32 :=
  broadcastInDim S3200000x1 ![0] bcast_S3200000_S3200000x1_0
    (select (cmpi .slt iv (broadcastInDim S3200000 ![] bcast_S_S3200000 (constantI S_ 32 0#32)))
      (addi iv (broadcastInDim S3200000 ![] bcast_S_S3200000 (constantI S_ 32 100000#32))) iv)

/-- Per index, whether it lies in [0, 99999] once counted from the end. -/
def takeMask (iv : IVec S3200000 32) : IVec S3200000 1 :=
  Host.reduce IntOp.andi
    (andi
      (cmpi .sge (idxCol iv) (broadcastInDim S3200000x1 ![] bcast_S_S3200000x1 (constantI S_ 32 0#32)))
      (cmpi .sle (idxCol iv) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The columns of `t` the indices name. -/
def takeCols (t : FVec Ideal S16x100000 .f32) (iv : IVec S3200000 32) : FVec Ideal S16x3200000 .f32 :=
  select (broadcastInDim S16x3200000 ![1] bcast_S3200000_S16x3200000_1 (takeMask iv))
    (Host.gather gather_S16x100000_S3200000x1_S16x3200000_0_1_n_n_1_1_161 t (idxCol iv))
    (broadcastInDim S16x3200000 ![] bcast_S_S16x3200000 (constant (F := Ideal) S_ .f32 0x7FC00000#32))

/-- A fold of the bitwise `and`, from one, over words that are all one is one. -/
theorem fold_andi_ones {ι : Type} (S : Finset ι) (x : ι → BitVec 1) (h : ∀ i ∈ S, x i = 1#1) :
    S.fold IntOp.andi 1#1 x = 1#1 := by
  induction S using Finset.cons_induction with
  | empty => rfl
  | cons a S ha ih =>
    rw [Finset.fold_cons, h a (Finset.mem_cons_self a S), ih fun i hi => h i (Finset.mem_cons_of_mem hi)]
    decide

/-- Row `i` of the index column is the wrapped index `i`. -/
theorem idxCol_apply (iv : IVec S3200000 32) (i : S3200000x1.Idx) :
    idxCol iv i = wrap (iv (ix1 ⟨(i 0).val, idx2_lt0 i⟩)) := by
  unfold idxCol
  rw [broadcastInDim_apply _ _ _ i (ix1 ⟨(i 0).val, idx2_lt0 i⟩) (fun a => by
    obtain rfl : a = 0 := Subsingleton.elim _ _
    rfl)]
  rfl

/-- Every index being one NumPy accepts, the mask is one everywhere. -/
theorem takeMask_apply (iv : IVec S3200000 32) (hin : ∀ e, InRange (iv (ix1 e))) (j : S3200000.Idx) :
    takeMask iv j = 1#1 := by
  unfold takeMask
  rw [Host.reduce_eq_fold]
  refine fold_andi_ones _ _ fun i _ => ?_
  show IntOp.andi (IntOp.cmpi .sge (idxCol iv i) 0#32) (IntOp.cmpi .sle (idxCol iv i) 99999#32) = 1#1
  rw [idxCol_apply]
  obtain ⟨h0, h1⟩ := wrap_toInt_of_inRange (hin ⟨(i 0).val, idx2_lt0 i⟩)
  have e0 : IntOp.cmpi .sge (wrap (iv (ix1 ⟨(i 0).val, idx2_lt0 i⟩))) 0#32 = 1#1 := by
    simp only [IntOp.cmpi, BitVec.sle, BitVec.toInt_zero]
    simp [h0]
  have e1 : IntOp.cmpi .sle (wrap (iv (ix1 ⟨(i 0).val, idx2_lt0 i⟩))) 99999#32 = 1#1 := by
    have h9 : (99999#32 : BitVec 32).toInt = 99999 := by decide
    simp only [IntOp.cmpi, BitVec.sle, h9]
    simp [h1]
  rw [e0, e1]
  decide

/-- The gather reads, at (k, e), the table at row `k` and the column start index `e` names, read signed and clamped. -/
theorem gather_apply {α : Type} (t : S16x100000.Idx → α) (idx : IVec S3200000x1 32) (k : Fin 16) (e : Fin 3200000)
    (c : Fin 100000) (hc : c.val = min (idx (ix2 e (0 : Fin 1))).toInt.toNat (100000 - 1)) :
    Host.gather gather_S16x100000_S3200000x1_S16x3200000_0_1_n_n_1_1_161 t idx (ix2 k e) = t (ix2 k c) := by
  unfold Host.gather
  congr 1
  funext a
  refine Fin.ext ?_
  show GatherDims.start _ (ix2 k e) idx a + GatherDims.batchCoord _ (ix2 k e) a + GatherDims.offCoord _ (ix2 k e) a = _
  rw [GatherDims.batchCoord_eq_zero _ _ _ List.not_mem_nil, Nat.add_zero]
  match a with
  | ⟨0, h0⟩ =>
    -- the row axis is the one offset axis: no start index, the result's row coordinate
    unfold GatherDims.start GatherDims.offCoord
    rw [dif_neg (by decide +revert), dif_pos (by decide +revert), Nat.zero_add]
    exact congrArg (fun q : Fin 2 => ((ix2 k e) q).val) (rfl : _ = (⟨0, h0⟩ : Fin 2))
  | ⟨1, h1⟩ =>
    -- the column axis is collapsed and start-indexed: the clamped start index alone
    unfold GatherDims.start GatherDims.offCoord
    rw [dif_pos (by decide +revert), dif_neg (by decide +revert), Nat.add_zero]
    show _ = c.val
    rw [hc]
    have hs : gather_S16x100000_S3200000x1_S16x3200000_0_1_n_n_1_1_161.siIdx (ix2 k e)
        ⟨List.idxOf (⟨1, h1⟩ : Fin 2) gather_S16x100000_S3200000x1_S16x3200000_0_1_n_n_1_1_161.startIndexMap,
          List.idxOf_lt_length_iff.2 (by decide +revert)⟩ = ix2 e (0 : Fin 1) := by
      funext b
      refine Fin.ext ?_
      match b with
      | ⟨0, g0⟩ =>
        unfold GatherDims.siIdx
        rw [dif_neg (by decide +revert)]
        unfold GatherDims.siCoord
        rw [Fin.val_cast]
        exact congrArg (fun q : Fin 2 => ((ix2 k e) q).val) (rfl : _ = (⟨1, h1⟩ : Fin 2))
      | ⟨1, g1⟩ =>
        unfold GatherDims.siIdx
        rw [dif_pos (by decide +revert)]
        rfl
    rw [hs]
    rfl

/-- THE TAKE READ AT (k, e), every index being one NumPy accepts: the table at row `k`, column the index's row. -/
theorem takeCols_apply (t : FVec Ideal S16x100000 .f32) (iv : IVec S3200000 32) (hin : ∀ e, InRange (iv (ix1 e)))
    (k : Fin 16) (e : Fin 3200000) : takeCols t iv (ix2 k e) = t (ix2 k (rowOf (iv (ix1 e)))) := by
  unfold takeCols
  rw [select_apply, broadcastInDim_apply _ _ _ (ix2 k e) (ix1 e) (fun a => by
    obtain rfl : a = 0 := Subsingleton.elim _ _
    rfl), takeMask_apply iv hin, select_one]
  refine gather_apply _ _ k e _ ?_
  show min (wrap (iv (ix1 e))).toInt.toNat (100000 - 1) = _
  rw [idxCol_apply]

/-- The same with the three definitions unfolded, over any table and indices. -/
theorem take_read (t : FVec Ideal S16x100000 .f32) (iv : IVec S3200000 32) (hin : ∀ e, InRange (iv (ix1 e)))
    (k : Fin 16) (e : Fin 3200000) :
    select
        (broadcastInDim S16x3200000 ![1] bcast_S3200000_S16x3200000_1
          (Host.reduce IntOp.andi
            (andi
              (cmpi .sge
                (broadcastInDim S3200000x1 ![0] bcast_S3200000_S3200000x1_0
                  (select (cmpi .slt iv (broadcastInDim S3200000 ![] bcast_S_S3200000 (constantI S_ 32 0#32)))
                    (addi iv (broadcastInDim S3200000 ![] bcast_S_S3200000 (constantI S_ 32 100000#32))) iv))
                (broadcastInDim S3200000x1 ![] bcast_S_S3200000x1 (constantI S_ 32 0#32)))
              (cmpi .sle
                (broadcastInDim S3200000x1 ![0] bcast_S3200000_S3200000x1_0
                  (select (cmpi .slt iv (broadcastInDim S3200000 ![] bcast_S_S3200000 (constantI S_ 32 0#32)))
                    (addi iv (broadcastInDim S3200000 ![] bcast_S_S3200000 (constantI S_ 32 100000#32))) iv))
                (broadcastInDim S3200000x1 ![0, 1] bcast_S1x1_S3200000x1_0_1
                  (broadcastInDim S1x1 ![1] bcast_S1_S1x1_1 (constantI S1 32 99999#32)))))
            (constantI S_ 1 1#1) reducesTo_S3200000x1_S3200000_d1 h_S_))
        (Host.gather gather_S16x100000_S3200000x1_S16x3200000_0_1_n_n_1_1_161 t
          (broadcastInDim S3200000x1 ![0] bcast_S3200000_S3200000x1_0
            (select (cmpi .slt iv (broadcastInDim S3200000 ![] bcast_S_S3200000 (constantI S_ 32 0#32)))
              (addi iv (broadcastInDim S3200000 ![] bcast_S_S3200000 (constantI S_ 32 100000#32))) iv)))
        (broadcastInDim S16x3200000 ![] bcast_S_S16x3200000 (constant (F := Ideal) S_ .f32 0x7FC00000#32))
        (ix2 k e)
      = t (ix2 k (rowOf (iv (ix1 e)))) :=
  takeCols_apply t iv hin k e

/-- Transporting along an equation of types and back along any equation the other way is the identity. -/
theorem cast_cast_self {α β : Sort _} (h₁ : α = β) (h₂ : β = α) (a : α) : cast h₂ (cast h₁ a) = a := by
  subst h₁; rfl

/-- Transport along an equation of a type with itself is the identity. -/
theorem cast_self' {α : Sort _} (h : α = α) (a : α) : cast h a = a :=
  eq_of_heq (cast_heq h a)

/-- Row 1 of the edge list, sliced off and flattened, read at an entry. -/
theorem eiRow1_apply (c : Dev nD) (e : Fin 3200000) :
    shapeCast S3200000 (extractStridedSlice S1x3200000 ![1, 0] (eiA m c) slices_S2x3200000_S1x3200000_1_0)
      shapeCasts_S1x3200000_S3200000 (ix1 e) = eiA m c (ix2 1 e) := by
  rw [shapeCast_1a_a_apply, slice2_axis0_apply 1 _ _ (0 : Fin 1) e (1 : Fin 2) rfl]

/-- Row 0 of the edge list, sliced off and flattened, read at an entry. -/
theorem eiRow0_apply (c : Dev nD) (e : Fin 3200000) :
    shapeCast S3200000 (extractStridedSlice S1x3200000 ![0, 0] (eiA m c) slices_S2x3200000_S1x3200000_0_0)
      shapeCasts_S1x3200000_S3200000 (ix1 e) = eiA m c (ix2 0 e) := by
  rw [shapeCast_1a_a_apply, slice2_axis0_apply 0 _ _ (0 : Fin 1) e (0 : Fin 2) rfl]

/-- The table gathered by the column end points. -/
theorem v5_at (c : Dev nD) (hin : ∀ (a : Fin 2) (e : Fin 3200000), InRange (eiA m c (ix2 a e)))
    (k : Fin 16) (e : Fin 3200000) :
    (V m c main_v5 : FVec Ideal S16x3200000 .f32) (ix2 k e) = feat (xA m c) (eiA m c) 1 e k := by
  dsimp only [Gen.V, Gen.V0]
  simp only [Gen.hostOps0, Gen.hostOps0_1, Gen.hostOps0_2, Gen.hostOps0_3, List.flatten_cons, List.flatten_nil,
    List.append_nil, List.cons_append, List.nil_append]
  after_results_simp
  simp only [StableHlo.TRef.ofBuf, StableHlo.TRef.toBuf, cast_cast_self]
  simp only [cast_self']
  refine (take_read _ _ ?_ k e).trans ?_
  · intro e'
    show InRange (shapeCast S3200000 (extractStridedSlice S1x3200000 ![1, 0] (eiA m c) slices_S2x3200000_S1x3200000_1_0)
      shapeCasts_S1x3200000_S3200000 (ix1 e'))
    rw [eiRow1_apply]
    exact hin 1 e'
  · show transpose S16x100000 [1, 0] (xA m c) transposes_S100000x16_S16x100000_1_0
        (ix2 k (rowOf (shapeCast S3200000 (extractStridedSlice S1x3200000 ![1, 0] (eiA m c)
          slices_S2x3200000_S1x3200000_1_0) shapeCasts_S1x3200000_S3200000 (ix1 e)))) = _
    rw [transpose_ix2_apply, eiRow1_apply]
    rfl

/-- The table gathered by the row end points. -/
theorem v6_at (c : Dev nD) (hin : ∀ (a : Fin 2) (e : Fin 3200000), InRange (eiA m c (ix2 a e)))
    (k : Fin 16) (e : Fin 3200000) :
    (V m c main_v6 : FVec Ideal S16x3200000 .f32) (ix2 k e) = feat (xA m c) (eiA m c) 0 e k := by
  dsimp only [Gen.V, Gen.V0]
  simp only [Gen.hostOps0, Gen.hostOps0_1, Gen.hostOps0_2, Gen.hostOps0_3, List.flatten_cons, List.flatten_nil,
    List.append_nil, List.cons_append, List.nil_append]
  after_results_simp
  simp only [StableHlo.TRef.ofBuf, StableHlo.TRef.toBuf, cast_cast_self]
  simp only [cast_self']
  refine (take_read _ _ ?_ k e).trans ?_
  · intro e'
    show InRange (shapeCast S3200000 (extractStridedSlice S1x3200000 ![0, 0] (eiA m c) slices_S2x3200000_S1x3200000_0_0)
      shapeCasts_S1x3200000_S3200000 (ix1 e'))
    rw [eiRow0_apply]
    exact hin 0 e'
  · show transpose S16x100000 [1, 0] (xA m c) transposes_S100000x16_S16x100000_1_0
        (ix2 k (rowOf (shapeCast S3200000 (extractStridedSlice S1x3200000 ![0, 0] (eiA m c)
          slices_S2x3200000_S1x3200000_0_0) shapeCasts_S1x3200000_S3200000 (ix1 e)))) = _
    rw [transpose_ix2_apply, eiRow0_apply]
    rfl

end Cert.KernelIdeal.HostValue

end
-- ==== Proof.KernelWeights.lean ====
/-
  The five small operands the kernel region is entered with, read at an entry: the two halves of the first layer's
  weights transposed, the second layer's weights as a row, and the two biases as columns.
-/
import proofs.«425720_j67937792688142_1_alg».proof.Proof.Gen.KernelIdeal.Frame
import proofs.«425720_j67937792688142_1_alg».proof.Proof.KernelArgs
import Idealize.ShloMosaic.Lib.StableHlo.Run
import Idealize.ShloMosaic.Lib.ValueLayout

noncomputable section

namespace Cert.KernelIdeal.HostValue

open Idealize.ShloMosaic Idealize.ShloMosaic.ValueIdx Idealize.ShloMosaic.TcCoe Idealize.SL.Sem
open Cert.KernelIdeal Cert.KernelIdeal.Gen Cert.KernelIdeal.Args

variable (m : (ℓ : Loc nD τ sig) → Buf (Elt Ideal) ℓ)

theorem v9_at (c : Dev nD) (j : Fin 64) (k : Fin 16) :
    (V m c main_v9 : FVec Ideal S64x16 .f32) (ix2 j k) = W1A m c (ix2 (Fin.castAdd 16 k) j) := by
  -- the operand as the host computes it: rows 0‥15 of the first layer's weights, transposed
  have e : (V m c main_v9 : FVec Ideal S64x16 .f32)
      = transpose S64x16 [1, 0] (extractStridedSlice S16x64 ![0, 0] (W1A m c) slices_S32x64_S16x64_0_0)
          transposes_S16x64_S64x16_1_0 := by
    dsimp only [Gen.V, Gen.V0]
    simp only [Gen.hostOps0, Gen.hostOps0_1, Gen.hostOps0_2, Gen.hostOps0_3, List.flatten_cons, List.flatten_nil,
      List.append_nil, List.cons_append, List.nil_append]
    open StableHlo in after_results
  rw [e, transpose_ix2_apply]
  exact slice2_axis0_apply 0 _ _ k j (Fin.castAdd 16 k) (Nat.zero_add _).symm

theorem v10_at (c : Dev nD) (j : Fin 64) (k : Fin 16) :
    (V m c main_v10 : FVec Ideal S64x16 .f32) (ix2 j k) = W1A m c (ix2 (Fin.natAdd 16 k) j) := by
  -- the operand as the host computes it: rows 16‥31 of the first layer's weights, transposed
  have e : (V m c main_v10 : FVec Ideal S64x16 .f32)
      = transpose S64x16 [1, 0] (extractStridedSlice S16x64 ![16, 0] (W1A m c) slices_S32x64_S16x64_16_0)
          transposes_S16x64_S64x16_1_0 := by
    dsimp only [Gen.V, Gen.V0]
    simp only [Gen.hostOps0, Gen.hostOps0_1, Gen.hostOps0_2, Gen.hostOps0_3, List.flatten_cons, List.flatten_nil,
      List.append_nil, List.cons_append, List.nil_append]
    open StableHlo in after_results
  rw [e, transpose_ix2_apply]
  exact slice2_axis0_apply 16 _ _ k j (Fin.natAdd 16 k) rfl

theorem v11_at (c : Dev nD) (j : Fin 64) :
    (V m c main_v11 : FVec Ideal S1x64 .f32) (ix2 (0 : Fin 1) j) = W2A m c (ix2 j (0 : Fin 1)) := by
  -- the operand as the host computes it: the second layer's weights, transposed
  have e : (V m c main_v11 : FVec Ideal S1x64 .f32)
      = transpose S1x64 [1, 0] (W2A m c) transposes_S64x1_S1x64_1_0 := by
    dsimp only [Gen.V, Gen.V0]
    simp only [Gen.hostOps0, Gen.hostOps0_1, Gen.hostOps0_2, Gen.hostOps0_3, List.flatten_cons, List.flatten_nil,
      List.append_nil, List.cons_append, List.nil_append]
    open StableHlo in after_results
  rw [e, transpose_ix2_apply]

theorem v12_at (c : Dev nD) (j : Fin 64) :
    (V m c main_v12 : FVec Ideal S64x1 .f32) (ix2 j (0 : Fin 1)) = b1A m c (ix1 j) := by
  -- the operand as the host computes it: the first layer's bias as a column (same row-major position)
  have e : (V m c main_v12 : FVec Ideal S64x1 .f32) = shapeCast S64x1 (b1A m c) shapeCasts_S64_S64x1 := by
    dsimp only [Gen.V, Gen.V0]
    simp only [Gen.hostOps0, Gen.hostOps0_1, Gen.hostOps0_2, Gen.hostOps0_3, List.flatten_cons, List.flatten_nil,
      List.append_nil, List.cons_append, List.nil_append]
    open StableHlo in after_results
    rfl
  rw [e]
  refine shapeCast_apply _ _ _ _ ?_
  rw [Shape.rowMajor_val_one, Shape.rowMajor_val_two]
  show j.val = j.val * 1 + 0
  omega

theorem v13_at (c : Dev nD) :
    (V m c main_v13 : FVec Ideal S1x1 .f32) (ix2 (0 : Fin 1) (0 : Fin 1)) = b2A m c (ix1 (0 : Fin 1)) := by
  -- the operand as the host computes it: the second layer's bias as a 1 × 1 matrix
  have e : (V m c main_v13 : FVec Ideal S1x1 .f32) = shapeCast S1x1 (b2A m c) shapeCasts_S1_S1x1 := by
    dsimp only [Gen.V, Gen.V0]
    simp only [Gen.hostOps0, Gen.hostOps0_1, Gen.hostOps0_2, Gen.hostOps0_3, List.flatten_cons, List.flatten_nil,
      List.append_nil, List.cons_append, List.nil_append]
    open StableHlo in after_results
    rfl
  rw [e]
  refine shapeCast_apply _ _ _ _ ?_
  rw [Shape.rowMajor_val_one, Shape.rowMajor_val_two]
  rfl

end Cert.KernelIdeal.HostValue

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KernelBody.lean ====
/-
  The kernel body's one stored value, read at an entry of its block: for lane q,
      σ( ∑ⱼ w₂[0, j] · tanh( ∑ₖ wa[j, k] · bi[k, q] + ∑ₖ wb[j, k] · bo[k, q] + b₁[j, 0] ) + b₂[0, 0] ).
-/
import proofs.«425720_j67937792688142_1_alg».proof.Proof.Gen.KernelIdeal.Skeleton
import proofs.«425720_j67937792688142_1_alg».proof.Proof.LibMatmulAt
import Idealize.ShloMosaic.Lib.Pipeline.Value

noncomputable section

open scoped BigOperators

namespace Cert.KernelIdeal.BodyValue

open Idealize.ShloMosaic Idealize.ShloMosaic.ValueIdx Cert.KernelIdeal Cert.KernelIdeal.Gen

/-! ## Where the two products' dimension numbers read their operands

Both records contract the left operand's axis 1 with the right operand's axis 0 and have no batch axis: the left
operand is read at (row, k), the right at (k, column). -/

/-- First layer: the left operand's row is the result's row. -/
theorem lhs_first_0 (i : S64x25600.Idx) (c : dot_S64x16_S16x25600_S64x25600_1_0_0_1_n_n.contr.Idx) :
    (dot_S64x16_S16x25600_S64x25600_1_0_0_1_n_n.lhsIdx i c 0).val = (i 0).val := by
  unfold DotDims.lhsIdx
  rw [dif_neg (show ¬(0 : Fin S64x16.rank) ∈ dot_S64x16_S16x25600_S64x25600_1_0_0_1_n_n.lhsBatch by decide),
    dif_pos (show (0 : Fin S64x16.rank) ∈ dot_S64x16_S16x25600_S64x25600_1_0_0_1_n_n.lhsNonContracting by decide)]
  rfl

/-- First layer: the left operand's column is the contraction position. -/
theorem lhs_first_1 (i : S64x25600.Idx) (c : dot_S64x16_S16x25600_S64x25600_1_0_0_1_n_n.contr.Idx) :
    (dot_S64x16_S16x25600_S64x25600_1_0_0_1_n_n.lhsIdx i c 1).val = (c ⟨0, by decide⟩).val :=
  dot_S64x16_S16x25600_S64x25600_1_0_0_1_n_n.lhsIdx_val_of_single rfl i c

/-- First layer: the right operand's row is the contraction position. -/
theorem rhs_first_0 (i : S64x25600.Idx) (c : dot_S64x16_S16x25600_S64x25600_1_0_0_1_n_n.contr.Idx) :
    (dot_S64x16_S16x25600_S64x25600_1_0_0_1_n_n.rhsIdx i c 0).val = (c ⟨0, by decide⟩).val :=
  dot_S64x16_S16x25600_S64x25600_1_0_0_1_n_n.rhsIdx_val_of_single rfl i c

/-- First layer: the right operand's column is the result's column. -/
theorem rhs_first_1 (i : S64x25600.Idx) (c : dot_S64x16_S16x25600_S64x25600_1_0_0_1_n_n.contr.Idx) :
    (dot_S64x16_S16x25600_S64x25600_1_0_0_1_n_n.rhsIdx i c 1).val = (i 1).val := by
  unfold DotDims.rhsIdx
  rw [dif_neg (show ¬(1 : Fin S16x25600.rank) ∈ dot_S64x16_S16x25600_S64x25600_1_0_0_1_n_n.rhsBatch by decide),
    dif_pos (show (1 : Fin S16x25600.rank) ∈ dot_S64x16_S16x25600_S64x25600_1_0_0_1_n_n.rhsNonContracting by decide)]
  rfl

/-- Second layer: the left operand's row is the result's row. -/
theorem lhs_second_0 (i : S1x25600.Idx) (c : dot_S1x64_S64x25600_S1x25600_1_0_0_1_n_n.contr.Idx) :
    (dot_S1x64_S64x25600_S1x25600_1_0_0_1_n_n.lhsIdx i c 0).val = (i 0).val := by
  unfold DotDims.lhsIdx
  rw [dif_neg (show ¬(0 : Fin S1x64.rank) ∈ dot_S1x64_S64x25600_S1x25600_1_0_0_1_n_n.lhsBatch by decide),
    dif_pos (show (0 : Fin S1x64.rank) ∈ dot_S1x64_S64x25600_S1x25600_1_0_0_1_n_n.lhsNonContracting by decide)]
  rfl

/-- Second layer: the left operand's column is the contraction position. -/
theorem lhs_second_1 (i : S1x25600.Idx) (c : dot_S1x64_S64x25600_S1x25600_1_0_0_1_n_n.contr.Idx) :
    (dot_S1x64_S64x25600_S1x25600_1_0_0_1_n_n.lhsIdx i c 1).val = (c ⟨0, by decide⟩).val :=
  dot_S1x64_S64x25600_S1x25600_1_0_0_1_n_n.lhsIdx_val_of_single rfl i c

/-- Second layer: the right operand's row is the contraction position. -/
theorem rhs_second_0 (i : S1x25600.Idx) (c : dot_S1x64_S64x25600_S1x25600_1_0_0_1_n_n.contr.Idx) :
    (dot_S1x64_S64x25600_S1x25600_1_0_0_1_n_n.rhsIdx i c 0).val = (c ⟨0, by decide⟩).val :=
  dot_S1x64_S64x25600_S1x25600_1_0_0_1_n_n.rhsIdx_val_of_single rfl i c

/-- Second layer: the right operand's column is the result's column. -/
theorem rhs_second_1 (i : S1x25600.Idx) (c : dot_S1x64_S64x25600_S1x25600_1_0_0_1_n_n.contr.Idx) :
    (dot_S1x64_S64x25600_S1x25600_1_0_0_1_n_n.rhsIdx i c 1).val = (i 1).val := by
  unfold DotDims.rhsIdx
  rw [dif_neg (show ¬(1 : Fin S64x25600.rank) ∈ dot_S1x64_S64x25600_S1x25600_1_0_0_1_n_n.rhsBatch by decide),
    dif_pos (show (1 : Fin S64x25600.rank) ∈ dot_S1x64_S64x25600_S1x25600_1_0_0_1_n_n.rhsNonContracting by decide)]
  rfl

/-! ## A column broadcast along the rows -/

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The stored value at a lane -/

theorem pay_at (bi bo : Vec Ideal S16x25600 .f32) (wa wb : Vec Ideal S64x16 .f32) (b1c : Vec Ideal S64x1 .f32)
    (w2r : Vec Ideal S1x64 .f32) (b2c : Vec Ideal S1x1 .f32) (q : Fin 25600) :
    k0_pay1 (F := Ideal) bi bo wa wb b1c w2r b2c (ix2 (0 : Fin 1) q)
      = Ideal.logistic ((∑ j : Fin 64, w2r (ix2 (0 : Fin 1) j)
          * Ideal.tanh ((∑ k : Fin 16, wa (ix2 j k) * bi (ix2 k q) + ∑ k : Fin 16, wb (ix2 j k) * bo (ix2 k q))
              + b1c (ix2 j (0 : Fin 1))))
          + b2c (ix2 (0 : Fin 1) (0 : Fin 1))) := by
  unfold k0_pay1
  -- a cast to the same shape is the identity
  simp only [shapeCast_self, matmul]
  -- the two outer pointwise operations, read at the lane
  simp only [logistic, addf, Ideal.logistic_def, Ideal.addf_def]
  -- the second layer's product and its bias
  rw [MatmulAt.matmul_zero_at dot_S1x64_S64x25600_S1x25600_1_0_0_1_n_n rfl rfl lhs_second_0 lhs_second_1 rhs_second_0
    rhs_second_1, broadcastTo_a1_ab_apply]
  refine congrArg (fun x => Ideal.logistic (x + b2c (ix2 (0 : Fin 1) (0 : Fin 1)))) (Finset.sum_congr rfl fun j _ => ?_)
  -- hidden unit j: rounding to bf16 is the identity over the extended reals
  simp only [truncf, tanh, addf, Ideal.truncf_def, Ideal.tanh_def, Ideal.addf_def]
  -- the first layer's two products and its bias
  rw [MatmulAt.matmul_zero_at dot_S64x16_S16x25600_S64x25600_1_0_0_1_n_n rfl rfl lhs_first_0 lhs_first_1 rhs_first_0
    rhs_first_1, MatmulAt.matmul_zero_at dot_S64x16_S16x25600_S64x25600_1_0_0_1_n_n rfl rfl lhs_first_0 lhs_first_1
    rhs_first_0 rhs_first_1, broadcastTo_a1_ab_apply]
  simp only [truncf_apply]

end Cert.KernelIdeal.BodyValue

end
-- ==== Proof.KernelRun.lean ====
/-
  The idealized kernel program's result as a function of its arguments.

  The pallas_call walks 125 grid points; point t reads columns [25600 t, 25600 (t+1)) of the two gathered feature
  tables and the five small operands whole, and writes the same columns of a [1, 3200000] row: entry (0, e) is the
  score of edge e. The blocks tile the row, so after the run the row holds every edge's score; the host reshape that
  follows turns the row into the [3200000, 1] column the program returns.
-/
import proofs.«425720_j67937792688142_1_alg».proof.Proof.KernelTake
import proofs.«425720_j67937792688142_1_alg».proof.Proof.KernelWeights
import proofs.«425720_j67937792688142_1_alg».proof.Proof.KernelBody
import proofs.«425720_j67937792688142_1_alg».proof.Proof.Spec
import Idealize.ShloMosaic.Lib.Pipeline.Value
import Idealize.ShloMosaic.Lib.StableHlo.Run

set_option maxRecDepth 16384

noncomputable section

open scoped BigOperators

namespace Cert.KernelIdeal.RunValue

open Idealize.ShloMosaic Idealize.ShloMosaic.ValueIdx Idealize.ShloMosaic.TcCoe Idealize.SL.Sem
open Cert.KernelIdeal Cert.KernelIdeal.Gen Cert.KernelIdeal.Args Cert.KernelIdeal.HostValue Cert.EdgeNet

/-! ## The printed index maps over the grid -/

theorem hz : (![0, 0] : Fin 2 → Nat) = fun _ => 0 := funext fun a => by fin_cases a <;> rfl

theorem N_lt (t : Fin cfg0.N) : t.val < 125 := t.isLt

/-- The two feature tables and the result move with the point along their second axis. -/
theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx7 : ∀ t : Fin cfg0.N, win0_7.index t (0 : Fin 2) = 0 ∧ win0_7.index t (1 : Fin 2) = t.val :=
  (by decide +kernel : ∀ t : Fin grid0.N, _)
/-- The five small operands stay at their one block. -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-! ## A window's block at a point, read off any array: which entry of the array each entry of the block is -/

theorem blk0_read (A : FVec Ideal S16x3200000 .f32) (t : Fin cfg0.N) (k : Fin 16) (q : Fin 25600) :
    (((cfg0.win 0).blk t).view.read (Elt Ideal) A : Vec Ideal S16x25600 .f32) (ix2 k q)
      = A (ix2 k ⟨t.val * 25600 + q.val, by have := N_lt t; omega⟩) := by
  obtain ⟨e0, e1⟩ := idx0 t
  show A (((cfg0.win 0).blk t).view.emb (ix2 k q)) = _
  refine congrArg A (funext fun a => Fin.ext ?_)
  match a with
  | ⟨0, _⟩ => show win0_0.index t (0 : Fin 2) * 16 + 1 * k.val = k.val; omega
  | ⟨1, _⟩ => show win0_0.index t (1 : Fin 2) * 25600 + 1 * q.val = t.val * 25600 + q.val; omega

theorem blk1_read (A : FVec Ideal S16x3200000 .f32) (t : Fin cfg0.N) (k : Fin 16) (q : Fin 25600) :
    (((cfg0.win 1).blk t).view.read (Elt Ideal) A : Vec Ideal S16x25600 .f32) (ix2 k q)
      = A (ix2 k ⟨t.val * 25600 + q.val, by have := N_lt t; omega⟩) := by
  obtain ⟨e0, e1⟩ := idx1 t
  show A (((cfg0.win 1).blk t).view.emb (ix2 k q)) = _
  refine congrArg A (funext fun a => Fin.ext ?_)
  match a with
  | ⟨0, _⟩ => show win0_1.index t (0 : Fin 2) * 16 + 1 * k.val = k.val; omega
  | ⟨1, _⟩ => show win0_1.index t (1 : Fin 2) * 25600 + 1 * q.val = t.val * 25600 + q.val; omega

theorem blk2_read (A : FVec Ideal S64x16 .f32) (t : Fin cfg0.N) (j : Fin 64) (k : Fin 16) :
    (((cfg0.win 2).blk t).view.read (Elt Ideal) A : Vec Ideal S64x16 .f32) (ix2 j k) = A (ix2 j k) := by
  obtain ⟨e0, e1⟩ := idx2 t
  show A (((cfg0.win 2).blk t).view.emb (ix2 j k)) = _
  refine congrArg A (funext fun a => Fin.ext ?_)
  match a with
  | ⟨0, _⟩ => show win0_2.index t (0 : Fin 2) * 64 + 1 * j.val = j.val; omega
  | ⟨1, _⟩ => show win0_2.index t (1 : Fin 2) * 16 + 1 * k.val = k.val; omega

theorem blk3_read (A : FVec Ideal S64x16 .f32) (t : Fin cfg0.N) (j : Fin 64) (k : Fin 16) :
    (((cfg0.win 3).blk t).view.read (Elt Ideal) A : Vec Ideal S64x16 .f32) (ix2 j k) = A (ix2 j k) := by
  obtain ⟨e0, e1⟩ := idx3 t
  show A (((cfg0.win 3).blk t).view.emb (ix2 j k)) = _
  refine congrArg A (funext fun a => Fin.ext ?_)
  match a with
  | ⟨0, _⟩ => show win0_3.index t (0 : Fin 2) * 64 + 1 * j.val = j.val; omega
  | ⟨1, _⟩ => show win0_3.index t (1 : Fin 2) * 16 + 1 * k.val = k.val; omega

theorem blk4_read (A : FVec Ideal S1x64 .f32) (t : Fin cfg0.N) (p : Fin 1) (j : Fin 64) :
    (((cfg0.win 4).blk t).view.read (Elt Ideal) A : Vec Ideal S1x64 .f32) (ix2 p j) = A (ix2 p j) := by
  obtain ⟨e0, e1⟩ := idx4 t
  show A (((cfg0.win 4).blk t).view.emb (ix2 p j)) = _
  refine congrArg A (funext fun a => Fin.ext ?_)
  match a with
  | ⟨0, _⟩ => show win0_4.index t (0 : Fin 2) * 1 + 1 * p.val = p.val; omega
  | ⟨1, _⟩ => show win0_4.index t (1 : Fin 2) * 64 + 1 * j.val = j.val; omega

theorem blk5_read (A : FVec Ideal S64x1 .f32) (t : Fin cfg0.N) (j : Fin 64) (p : Fin 1) :
    (((cfg0.win 5).blk t).view.read (Elt Ideal) A : Vec Ideal S64x1 .f32) (ix2 j p) = A (ix2 j p) := by
  obtain ⟨e0, e1⟩ := idx5 t
  show A (((cfg0.win 5).blk t).view.emb (ix2 j p)) = _
  refine congrArg A (funext fun a => Fin.ext ?_)
  match a with
  | ⟨0, _⟩ => show win0_5.index t (0 : Fin 2) * 64 + 1 * j.val = j.val; omega
  | ⟨1, _⟩ => show win0_5.index t (1 : Fin 2) * 1 + 1 * p.val = p.val; omega

theorem blk6_read (A : FVec Ideal S1x1 .f32) (t : Fin cfg0.N) (p p' : Fin 1) :
    (((cfg0.win 6).blk t).view.read (Elt Ideal) A : Vec Ideal S1x1 .f32) (ix2 p p') = A (ix2 p p') := by
  obtain ⟨e0, e1⟩ := idx6 t
  show A (((cfg0.win 6).blk t).view.emb (ix2 p p')) = _
  refine congrArg A (funext fun a => Fin.ext ?_)
  match a with
  | ⟨0, _⟩ => show win0_6.index t (0 : Fin 2) * 1 + 1 * p.val = p.val; omega
  | ⟨1, _⟩ => show win0_6.index t (1 : Fin 2) * 1 + 1 * p'.val = p'.val; omega

/-- The result window's block at point t: lane q is column 25600 t + q of the row. -/
theorem blk7_read (A : FVec Ideal S1x3200000 .f32) (t : Fin cfg0.N) (q : Fin 25600) :
    (((cfg0.win 7).blk t).view.read (Elt Ideal) A : Vec Ideal S1x25600 .f32) (ix2 (0 : Fin 1) q)
      = A (ix2 (0 : Fin 1) ⟨t.val * 25600 + q.val, by have := N_lt t; omega⟩) := by
  obtain ⟨e0, e1⟩ := idx7 t
  show A (((cfg0.win 7).blk t).view.emb (ix2 (0 : Fin 1) q)) = _
  refine congrArg A (funext fun a => Fin.ext ?_)
  match a with
  | ⟨0, _⟩ => show win0_7.index t (0 : Fin 2) * 1 + 1 * (0 : Fin 1).val = (0 : Fin 1).val; simp only [Fin.val_zero]; omega
  | ⟨1, _⟩ => show win0_7.index t (1 : Fin 2) * 25600 + 1 * q.val = t.val * 25600 + q.val; omega

/-! ## What one grid point stores -/

variable (m : (ℓ : Loc nD τ sig) → Buf (Elt Ideal) ℓ) (ρ : Dev nD → PrngReg)

/-- The scores laid out as the row the region writes: entry (0, e) is edge e's score. -/
def rowScores (c : Dev nD) : FVec Ideal S1x3200000 .f32 := fun i =>
  score (xA m c) (eiA m c) (W1A m c) (b1A m c) (W2A m c) (b2A m c) ⟨(i 1).val, idx2_lt1 i⟩

/-- Lane q of what point t stores is the score of edge 25600 t + q: the body's value at that lane, with each entry
    of each block read where it lies in its array, each array read as the host operations before the region left it;
    the products of the two layers are commuted against the way the score is written. -/
theorem lane_at (c : Dev nD) (hin : ∀ (a : Fin 2) (e : Fin 3200000), InRange (eiA m c (ix2 a e)))
    (t : Fin cfg0.N) (q : Fin 25600) :
    k0_pay1 (F := Ideal) (iblk m c 0 t) (iblk m c 1 t) (iblk m c 2 t) (iblk m c 3 t) (iblk m c 5 t) (iblk m c 4 t)
        (iblk m c 6 t) (ix2 (0 : Fin 1) q)
      = rowScores m c (ix2 (0 : Fin 1) ⟨t.val * 25600 + q.val, by have := N_lt t; omega⟩) := by
  refine (BodyValue.pay_at (iblk m c 0 t) (iblk m c 1 t) (iblk m c 2 t) (iblk m c 3 t) (iblk m c 5 t) (iblk m c 4 t)
    (iblk m c 6 t) q).trans ?_
  have h0 : ∀ k : Fin 16, (iblk m c 0 t : Vec Ideal S16x25600 .f32) (ix2 k q)
      = feat (xA m c) (eiA m c) 1 ⟨t.val * 25600 + q.val, by have := N_lt t; omega⟩ k :=
    fun k => (blk0_read (V m c main_v5) t k q).trans (v5_at m c hin k _)
  have h1 : ∀ k : Fin 16, (iblk m c 1 t : Vec Ideal S16x25600 .f32) (ix2 k q)
      = feat (xA m c) (eiA m c) 0 ⟨t.val * 25600 + q.val, by have := N_lt t; omega⟩ k :=
    fun k => (blk1_read (V m c main_v6) t k q).trans (v6_at m c hin k _)
  have h2 : ∀ (j : Fin 64) (k : Fin 16), (iblk m c 2 t : Vec Ideal S64x16 .f32) (ix2 j k)
      = W1A m c (ix2 (Fin.castAdd 16 k) j) := fun j k => (blk2_read (V m c main_v9) t j k).trans (v9_at m c j k)
  have h3 : ∀ (j : Fin 64) (k : Fin 16), (iblk m c 3 t : Vec Ideal S64x16 .f32) (ix2 j k)
      = W1A m c (ix2 (Fin.natAdd 16 k) j) := fun j k => (blk3_read (V m c main_v10) t j k).trans (v10_at m c j k)
  have h4 : ∀ j : Fin 64, (iblk m c 4 t : Vec Ideal S1x64 .f32) (ix2 (0 : Fin 1) j) = W2A m c (ix2 j (0 : Fin 1)) :=
    fun j => (blk4_read (V m c main_v11) t 0 j).trans (v11_at m c j)
  have h5 : ∀ j : Fin 64, (iblk m c 5 t : Vec Ideal S64x1 .f32) (ix2 j (0 : Fin 1)) = b1A m c (ix1 j) :=
    fun j => (blk5_read (V m c main_v12) t j 0).trans (v12_at m c j)
  have h6 : (iblk m c 6 t : Vec Ideal S1x1 .f32) (ix2 (0 : Fin 1) (0 : Fin 1)) = b2A m c (ix1 (0 : Fin 1)) :=
    (blk6_read (V m c main_v13) t 0 0).trans (v13_at m c)
  simp only [h0, h1, h2, h3, h4, h5, h6]
  unfold rowScores Cert.EdgeNet.score Cert.EdgeNet.hidden
  refine congrArg Ideal.logistic (congrArg (· + b2A m c (ix1 (0 : Fin 1))) (Finset.sum_congr rfl fun j _ => ?_))
  rw [mul_comm]
  exact congrArg (· * W2A m c (ix2 j (0 : Fin 1))) (congrArg Ideal.tanh (congrArg (· + b1A m c (ix1 j))
    (congrArg₂ (· + ·) (Finset.sum_congr rfl fun k _ => mul_comm _ _) (Finset.sum_congr rfl fun k _ => mul_comm _ _))))

/-- Point t's whole stored block is block t of the score row. -/
theorem block_eq (c : Dev nD) (hin : ∀ (a : Fin 2) (e : Fin 3200000), InRange (eiA m c (ix2 a e))) (t : Fin cfg0.N) :
    (k0_pay1 (F := Ideal) (iblk m c 0 t) (iblk m c 1 t) (iblk m c 2 t) (iblk m c 3 t) (iblk m c 5 t) (iblk m c 4 t)
        (iblk m c 6 t) : Vec Ideal S1x25600 .f32)
      = (((cfg0.win 7).blk t).view.read (Elt Ideal) (rowScores m c) : Vec Ideal S1x25600 .f32) := by
  funext j
  obtain ⟨p, q, rfl⟩ : ∃ (p : Fin 1) (q : Fin 25600), j = ix2 p q := ⟨j 0, j 1, eq_ix2 j⟩
  obtain rfl : p = 0 := Subsingleton.elim _ _
  exact (lane_at m c hin t q).trans (blk7_read (rowScores m c) t q).symm

/-- WHAT POINT t WRITES BACK is block t of the score row. -/
theorem flushed_eq (c : Dev nD) (hin : ∀ (a : Fin 2) (e : Fin 3200000), InRange (eiA m c (ix2 a e))) (t : Fin cfg0.N) :
    (dats m 0 c).flushed 7 t = ((cfg0.win 7).blk t).view.read (Elt Ideal) (rowScores m c) := by
  show (cfg0.win 7).cut (grid0.coords t) ((dats m 0 c).after 7 t) = _
  rw [after0_7]
  unfold out0_7
  rw [View.canon_unit_zero hz]
  simp only [View.ld_unit_zero (S := S16x25600) hz, View.ld_unit_zero (S := S64x16) hz, View.ld_unit_zero (S := S64x1) hz,
    View.ld_unit_zero (S := S1x64) hz, View.ld_unit_zero (S := S1x1) hz]
  exact block_eq m c hin t

/-! ## The blocks tile the row -/

/-- An index of the row is in point t's block iff each coordinate is in the block's range on its axis. -/
theorem mem_blk (t : Fin cfg0.N) (i : S1x3200000.Idx) :
    i ∈ ((cfg0.win 7).blk t).view.set ↔ ∀ a : Fin 2, win0_7.index t a * S1x25600.size a ≤ (i a).val
      ∧ (i a).val < win0_7.index t a * S1x25600.size a + S1x25600.size a := by
  show i ∈ ((View.whole main_v14).slice (win0_7.rect t)).set ↔ _
  rw [View.set_slice_whole, Rect.mem_set_unit]
  exact Iff.rfl

/-- Column e of the row lies in the block of point e / 25600, and every point writes its block back. -/
theorem cover (i : S1x3200000.Idx) :
    ∃ t : Fin cfg0.N, (cfg0.win 7).flush t = true ∧ i ∈ ((cfg0.win 7).blk t).view.set := by
  have h0 : (i 0).val < 1 := (i 0).isLt
  have h1 : (i 1).val < 3200000 := (i 1).isLt
  have hN : (i 1).val / 25600 < cfg0.N := by
    have h125 : cfg0.N = 125 := N_0
    rw [h125]; omega
  refine ⟨⟨(i 1).val / 25600, hN⟩, flush0_7 _, ?_⟩
  rw [mem_blk]
  obtain ⟨e0, e1⟩ := idx7 ⟨(i 1).val / 25600, hN⟩
  have e1' : win0_7.index ⟨(i 1).val / 25600, hN⟩ (1 : Fin 2) = (i 1).val / 25600 := e1
  intro a
  match a with
  | ⟨0, _⟩ =>
    show win0_7.index ⟨(i 1).val / 25600, hN⟩ (0 : Fin 2) * 1 ≤ (i 0).val
      ∧ (i 0).val < win0_7.index ⟨(i 1).val / 25600, hN⟩ (0 : Fin 2) * 1 + 1
    omega
  | ⟨1, _⟩ =>
    show win0_7.index ⟨(i 1).val / 25600, hN⟩ (1 : Fin 2) * 25600 ≤ (i 1).val
      ∧ (i 1).val < win0_7.index ⟨(i 1).val / 25600, hN⟩ (1 : Fin 2) * 25600 + 25600
    omega

/-- THE ROW after the run: every edge's score. -/
theorem final (c : Dev nD) (hin : ∀ (a : Fin 2) (e : Fin 3200000), InRange (eiA m c (ix2 a e))) :
    (dats m 0 c).arrAt 7 cfg0.N = rowScores m c :=
  (dats m 0 c).arrAt_eq_of_cover 7 (rowScores m c) (fun t _ => flushed_eq m c hin t) cover

/-! ## The reshape after the region, and the run -/

/-- The program's result: the row reshaped into a column is the score array. -/
theorem tail_eq (c : Dev nD) (hin : ∀ (a : Fin 2) (e : Fin 3200000), InRange (eiA m c (ix2 a e))) :
    Pipeline.afterTail₀ cfgs (dats m) 0 (V0 m) [hostOps1] c main_v15
      = scores (xA m c) (eiA m c) (W1A m c) (b1A m c) (W2A m c) (b2A m c) := by
  unfold Pipeline.afterTail₀
  show StableHlo.after hostOps1 _ (Proc.devRef .tc main_v15) = _
  after_results
  have hw : Pipeline.withArrays (cfgs 0).spec c (V0 m c) (fun w => (dats m 0 c).arrAt w (cfgs 0).N)
      (Proc.devRef .tc main_v14) = rowScores m c :=
    (Pipeline.withArrays_arr spec0 launch0.win.arr_inj c _ _ 7).trans (final m c hin)
  funext i
  have hi1 : (i 1).val < 1 := (i 1).isLt
  show shapeCast S3200000x1 (Pipeline.withArrays (cfgs 0).spec c (V0 m c) (fun w => (dats m 0 c).arrAt w (cfgs 0).N)
      (Proc.devRef .tc main_v14)) shapeCasts_S1x3200000_S3200000x1 i = _
  rw [hw, shapeCast_apply (rowScores m c) shapeCasts_S1x3200000_S3200000x1 i (ix2 (0 : Fin 1) ⟨(i 0).val, idx2_lt0 i⟩)
    (by rw [Shape.rowMajor_val_two, Shape.rowMajor_val_two]
        show (0 : Fin 1).val * 3200000 + (i 0).val = (i 0).val * 1 + (i 1).val
        simp only [Fin.val_zero]; omega)]
  rfl

/-- On every device, from any memory with zero counters: every weakly fair execution of the program terminates with
    the result at the score array of the arguments, and the arguments unchanged — for an edge list of valid indices. -/
theorem run (hin : ∀ (c : Dev nD) (a : Fin 2) (e : Fin 3200000), InRange (eiA m c (ix2 a e))) :
    θ_run defs (onTc (τ := τ) (main (F := Ideal))) ⟨m, fun _ => 0, ρ⟩ fun r => ∀ c : Dev nD,
      r.2.mem ((c.tc : Thread nD τ).loc main_v15) = scores (xA m c) (eiA m c) (W1A m c) (b1A m c) (W2A m c) (b2A m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v15 (Pipeline.mem_restRefs_of main_v15 (by decide) (by decide))).trans (tail_eq m c (hin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.RunValue

end
-- ==== Proof.lean ====
/-
  An edge network over a graph: for each of 3 200 000 edges, gather the sixteen features of its two end points from a
  table of 100 000 nodes, and score the edge by a two-layer perceptron,
      σ( ∑ⱼ tanh( ∑ₖ x[col e, k] · W₁[k, j] + ∑ₖ x[row e, k] · W₁[16 + k, j] + b₁[j] ) · W₂[j, 0] + b₂[0] ).

  The kernel program gathers columns of the transposed table on the host, runs the perceptron in one pallas_call over
  125 blocks of 25 600 edges with everything transposed (so its first layer is two products, one per end point, added),
  and reshapes the resulting row into a column. The reference gathers rows, concatenates the two end points' features
  and multiplies once by W₁. Over the extended reals the two are one function: a sum over thirty-two terms is the sum
  of its halves, and each product commutes; the logistic function of the kernel is 1 / (1 + exp (−z)), which is how the
  reference spells it. No finiteness is used. What is used of the precondition is that every edge end point is an
  index NumPy accepts for an axis of 100 000 entries: there the kernel's gather (which fills with NaN out of range)
  and the reference's (which clamps) read the same row.

  The three frames are the generated ones (the reference's is its generated run with the result dropped); the ideal
  pass rewrote nothing, so the idealization claim is trivial; the value claim joins the kernel's run
  (Proof/KernelRun.lean) with the reference's generated run read back (Proof/RefValue.lean) at the one function
  `Cert.EdgeNet.scores` (Proof/Spec.lean).
-/
import proofs.«425720_j67937792688142_1_alg».proof.Defs
import proofs.«425720_j67937792688142_1_alg».proof.Proof.Gen.Kernel
import proofs.«425720_j67937792688142_1_alg».proof.Proof.Gen.Kernel.Skeleton
import proofs.«425720_j67937792688142_1_alg».proof.Proof.Gen.Kernel.Launch
import proofs.«425720_j67937792688142_1_alg».proof.Proof.Gen.Kernel.Points
import proofs.«425720_j67937792688142_1_alg».proof.Proof.Gen.Kernel.Frame
import proofs.«425720_j67937792688142_1_alg».proof.Proof.Gen.KernelIdeal
import proofs.«425720_j67937792688142_1_alg».proof.Proof.Gen.KernelIdeal.Skeleton
import proofs.«425720_j67937792688142_1_alg».proof.Proof.Gen.KernelIdeal.Launch
import proofs.«425720_j67937792688142_1_alg».proof.Proof.Gen.KernelIdeal.Points
import proofs.«425720_j67937792688142_1_alg».proof.Proof.Gen.KernelIdeal.Frame
import proofs.«425720_j67937792688142_1_alg».proof.Proof.Gen.ReferenceIdeal
import proofs.«425720_j67937792688142_1_alg».proof.Proof.Gen.ReferenceIdeal.Run
import proofs.«425720_j67937792688142_1_alg».proof.Proof.Gen.ReferenceIdeal.Read
import proofs.«425720_j67937792688142_1_alg».proof.Proof.Gen.Pre_finite_inputs
import proofs.«425720_j67937792688142_1_alg».proof.Proof.PreDecode
import proofs.«425720_j67937792688142_1_alg».proof.Proof.RefValue
import proofs.«425720_j67937792688142_1_alg».proof.Proof.KernelRun
import Idealize.ShloMosaic.Adequacy
import Idealize.ShloMosaic.Init

noncomputable section

namespace Cert.Proof

open Idealize.ShloMosaic Idealize.ShloMosaic.ValueIdx Idealize.ShloMosaic.TcCoe Idealize.SL.Sem
open Cert.KernelIdeal.Args Cert.EdgeNet

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the six arguments, with every edge end point a valid index, both programs end with
    the score array of those arguments. -/
theorem algebraic : Cert.algebraic_KernelIdeal_ReferenceIdeal := by
  intro m ρ m' ρ' hpre hagree
  have hin : ∀ (c : Dev Cert.KernelIdeal.nD) (a : Fin 2) (e : Fin 3200000), InRange (eiA m c (ix2 a e)) :=
    fun c a e => inRange_of_pre _ _ _ _ _ _ (hpre c) a e
  refine ⟨fun c => scores (xA m c) (eiA m c) (W1A m c) (b1A m c) (W2A m c) (b2A m c),
    Cert.KernelIdeal.RunValue.run m ρ hin, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v33_eq _ _ _ _ _ _).trans
    (Cert.ReferenceIdeal.RefValue.ref_eq_scores _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
